-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192x8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.KernelBody.lean ====
import proofs.«109067_j36541581754617_1_alg».proof.Proof.Gen.Kernel.Launch
import proofs.«109067_j36541581754617_1_alg».proof.Proof.Gen.Kernel.Skeleton
import proofs.«109067_j36541581754617_1_alg».proof.Proof.Gen.Kernel.Points
import Idealize.ShloMosaic.Lib.Pipeline.FrameBody
import Idealize.ShloMosaic.Lib.Ring
import Idealize.ShloMosaic.Lib.Tactic

/-!
# One grid point of the pairwise-distance kernel

The array `X` (8192 rows of 64 numbers) is handed to the kernel twice: the first window walks its
eight row blocks of 1024 rows with the outer grid coordinate, the second with the inner one. At grid
point `t = (a, b)` the body loads row block `a` (call it `P`) and row block `b` (call it `Q`) and stores
one 1024 × 1024 tile of the result, a function `tile P Q` of the two blocks alone. This module states
that one step: what the two input buffers hold when the body runs (their blocks, whether or not the
block was fetched at this very point), and that the body leaves the inputs as they were and the
output buffer at `tile P Q`, whatever that buffer held before (the body reads it once and discards
what it read).
-/

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays and their blocks -/

/-- What core `c`'s buffers hold when the kernel starts: the launch contents (nothing runs before it). -/
abbrev V (c : Dev nD) (b : Ref sig .tc) : Buf (Elt F) ((c : Thread nD τ).loc b) := m ((c : Thread nD τ).loc b)

/-- The block of window `w`'s array that grid point `t` addresses, read off the launch contents. For the two
    input windows these are the row blocks `P` and `Q` of `X`. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The tile the body stores -/

/-- The whole 1024 × 64 input buffer, as the rectangle the body loads. -/
abbrev rowsRect : Rect S1024x64 := Rect.unit (s := S1024x64) ![0, 0] S1024x64.size inb_S1024x64_S1024x64_0_0
/-- The whole 1024 × 1024 output buffer, as the rectangle the body stores. -/
abbrev tileRect : Rect S1024x1024 := Rect.unit (s := S1024x1024) ![0, 0] S1024x1024.size inb_S1024x1024_S1024x1024_0_0

/-- What the output buffer holds after the body, from the two row blocks: the one store's value, laid over the
    whole buffer. -/
def tile (P Q : Vec F S1024x64 .f32) : Vec F S1024x1024 .f32 :=
  View.canon [⟨tileRect, k0_pay1 (View.ld P rowsRect) (View.ld Q rowsRect)⟩]

/-- The one store covers the buffer. -/
theorem tile_cover (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

/-! ## The body's triple -/

set_option maxHeartbeats 1000000 in
/-- On whole buffers `a`, `b` holding `P`, `Q` and a whole buffer `o` holding anything, the body runs to its end
    with `a`, `b` as they were and `o` at `tile P Q`. -/
theorem body_triple (c : Dev nD) (E : Set ℕ) (i : grid0.Coords)
    (a : Memref sig .tc .vmem S1024x64 .f32) (ha : a.IsWhole) (b : Memref sig .tc .vmem S1024x64 .f32) (hb : b.IsWhole)
    (o : Memref sig .tc .vmem S1024x1024 .f32) (ho : o.IsWhole)
    (P Q : Vec F S1024x64 .f32) (K : PUnit → sProp 𝕄) :
    iprop(owns (c : Thread nD τ) a fullShare P ∗ owns (c : Thread nD τ) b fullShare Q ∗ (∃ d, owns (c : Thread nD τ) o fullShare d)
        ∗ (iprop(owns (c : Thread nD τ) a fullShare P ∗ owns (c : Thread nD τ) b fullShare Q ∗ owns (c : Thread nD τ) o fullShare (tile P Q)) -∗ K ⟨⟩))
      ⊢ wp frame (wpE (defs₀ (F := F)) Variants.none c none) E (cc0__dist_kernel i a ha b hb o ho) K := by
  simp only [cc0__dist_kernel_eq_skeleton]; unfold cc0__dist_kernel_skel
  unfold owns
  iintro ⟨⟨%fa, %hfa, Ha⟩, ⟨%fb, %hfb, Hb⟩, ⟨%d, %fo, -, Ho⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (tile_cover _)

/-! ## The proof data of the launch -/

/-- Per core: the arrays as launched; after the body at point `t` the two input buffers still at their blocks and
    the output buffer at the tile of those blocks; no invariant beyond that and nothing owed. The array `X` is
    read through two windows, each holding half of it; the result is held whole. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_P (c : Dev nD) (t : Fin cfg0.N) : (dats m 0 c).after 0 t = blockAt m c 0 t := by dsimp only [dats]
theorem after_Q (c : Dev nD) (t : Fin cfg0.N) : (dats m 0 c).after 1 t = blockAt m c 1 t := by dsimp only [dats]
theorem after_tile (c : Dev nD) (t : Fin cfg0.N) :
    (dats m 0 c).after 2 t = tile (blockAt m c 0 t) (blockAt m c 1 t) := by dsimp only [dats]

/-- The first window's buffer holds row block `P` when the body runs at `t`. The block is fetched only when the
    outer coordinate moves (every eighth point); in between the buffer still holds it, the body having left it
    in place. -/
theorem before_P (c : Dev nD) (t : Fin cfg0.N) (d) : (dats m 0 c).before 0 t d = blockAt m c 0 t :=
  ((dats m 0 c).before_in_eq_fetched 0 rfl (fun _ => rfl) (fun _ _ _ => rfl)
      (fun t => by rw [after_P]; unfold Dat.blockOf blockAt; rw [A_eq]; try rfl) t d).trans
    (by unfold Dat.fetched Dat.blockOf blockAt; rw [A_eq]; try rfl)

/-- The second window's buffer holds row block `Q` (fetched at every point). -/
theorem before_Q (c : Dev nD) (t : Fin cfg0.N) (d) : (dats m 0 c).before 1 t d = blockAt m c 1 t :=
  ((dats m 0 c).before_in_eq_fetched 1 rfl (fun _ => rfl) (fun _ _ _ => rfl)
      (fun t => by rw [after_Q]; unfold Dat.blockOf blockAt; rw [A_eq]; try rfl) t d).trans
    (by unfold Dat.fetched Dat.blockOf blockAt; rw [A_eq]; try rfl)

/-! ## The obligation at a grid point -/

/-- What the body is handed at point `t`: -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [before_P, before_Q]
  rw [show (dats m 0 c).Φ t.succ = (dats m 0 c).Φ t.castSucc from rfl,
    show (dats m 0 c).owesAt () t.succ = (dats m 0 c).owesAt () t.castSucc from rfl,
    after_P, after_Q, after_tile]
  iintro ⟨HΦ, Hw, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

/-- The pipeline's obligation on the body, at every point. -/
theorem body_obligation (c : Dev nD) : BodyObligation (dats (F := F) m 0 c) (defs₀ (F := F)) Variants.none () Set.univ := fun t => by
  rw [bigSep_W0, bigSep_W0]
  exact body_at m c t

end Cert.Kernel.Dist

end
-- ==== Proof.KernelRun.lean ====
import proofs.«109067_j36541581754617_1_alg».proof.Proof.KernelBody

/-!
# The launch of the pairwise-distance kernel

The kernel reads the array `X` through two windows. The launch holds `X` whole; it is dealt to the two windows
half and half (a read needs only a share), and the result array is held whole by the output window. From the
one-point step this gives the whole run: every execution ends, `X` is unchanged, and the result array holds what
the 64 write-backs left, block by block.
-/

set_option maxRecDepth 16384

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The array behind two windows, dealt in halves -/

/-- The windows stand on two arrays: `X` (twice) and the result. -/
theorem arrs_eq : (Finset.univ.image (Pipeline.arrRef spec0) : Finset (Ref sig .tc)) = {main_arg0, main_v0} := by decide

/-- `X` whole splits into the two halves the input windows hold; the result goes whole to the output window. -/
theorem share_split (c : Dev nD) :
    (Pipeline.arrBufs spec0 c (V m c) : sProp 𝕄) ⊢ (dats m 0 c).arrays ((dats m 0 c).arrAt · 0) := by
  unfold Pipeline.arrBufs Dat.arrays
  rw [arrs_eq, bigSep_W0, bigSep_insert (by decide), bigSep_singleton]
  refine (show iprop(((c.tc : Thread nD τ).loc main_arg0 ↦{fullShare} V m c main_arg0)
    ∗ ((c.tc : Thread nD τ).loc main_v0 ↦{fullShare} V m c main_v0)) ⊢ _ from ?_)
  iintro ⟨HX, HO⟩
  ihave HX := (pointsTo_share (PosShare.mem_left_op_right fullShare)).1 $$ HX
  icases HX with ⟨HX₁, HX₂⟩
  isplitl [HX₁]
  · rw [(arr_whole0 0).set_eq_univ]; iexact HX₁
  isplitl [HX₂]
  · rw [(arr_whole0 1).set_eq_univ]; iexact HX₂
  · rw [(arr_whole0 2).set_eq_univ]; iexact HO

/-! ## The run -/

/-- The pipeline's bookkeeping lives in one copy of the rounds algebra. -/
abbrev EP : Emb (UR sig nD τ) (MT nD τ sig Unit (Elt F) ℕ (UR sig nD τ) ℕ) := emb₁

/-- Its launch element: every staging cell at round 0 and a token for each transfer the pipeline will issue. -/
def u₀ : UR sig nD τ := initOf (Pipeline.cells cfgs cellOf_inj) (Pipeline.launchToks cfgs cellOf_inj)

/-- After the run each window's array holds what the write-backs of all 64 points left. -/
def Final : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with all counters zero, every weakly fair execution ends without a fault in a state
    satisfying `Final`. -/
theorem run_main : θ_run defs (onTc (τ := τ) (main (F := F))) (s₀ m ρ) (Final m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := share_split m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- `X` is only read: it ends as launched. -/
theorem final_X (c : Dev nD) : (dats m 0 c).arrAt (0 : Fin 3) cfg0.N = m ((c : Thread nD τ).loc main_arg0) :=
  ((dats m 0 c).arrAt_in (0 : Fin 3) rfl _).trans (A_eq m c 0)

/-- The run with the result array named and `X` unchanged. -/
theorem run_named : θ_run defs (onTc (τ := τ) (main (F := F))) ⟨m, fun _ => 0, ρ⟩ (fun r => ∀ c : Dev nD,
      r.2.mem ((c.tc : Thread nD τ).loc main_v0) = (dats m 0 c).arrAt (2 : Fin 3) cfg0.N
      ∧ r.2.mem ((c.tc : Thread nD τ).loc main_arg0) = m ((c.tc : Thread nD τ).loc main_arg0)) :=
  (θ_run defs _ _).mono (fun _ h c => ⟨h c (2 : Fin 3), (h c (0 : Fin 3)).trans (final_X m c)⟩) (run_main m ρ)

/-- The frame: every execution ends, nothing faults, `X` is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_named m ρ)

end Cert.Kernel.Dist

end
-- ==== Proof.KernelIdealBody.lean ====
import proofs.«109067_j36541581754617_1_alg».proof.Proof.Gen.KernelIdeal.Launch
import proofs.«109067_j36541581754617_1_alg».proof.Proof.Gen.KernelIdeal.Skeleton
import proofs.«109067_j36541581754617_1_alg».proof.Proof.Gen.KernelIdeal.Points
import Idealize.ShloMosaic.Lib.Pipeline.FrameBody
import Idealize.ShloMosaic.Lib.Ring
import Idealize.ShloMosaic.Lib.Tactic

/-!
# One grid point of the pairwise-distance kernel

The array `X` (8192 rows of 64 numbers) is handed to the kernel twice: the first window walks its
eight row blocks of 1024 rows with the outer grid coordinate, the second with the inner one. At grid
point `t = (a, b)` the body loads row block `a` (call it `P`) and row block `b` (call it `Q`) and stores
one 1024 × 1024 tile of the result, a function `tile P Q` of the two blocks alone. This module states
that one step: what the two input buffers hold when the body runs (their blocks, whether or not the
block was fetched at this very point), and that the body leaves the inputs as they were and the
output buffer at `tile P Q`, whatever that buffer held before (the body reads it once and discards
what it read).
-/

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays and their blocks -/

/-- What core `c`'s buffers hold when the kernel starts: the launch contents (nothing runs before it). -/
abbrev V (c : Dev nD) (b : Ref sig .tc) : Buf (Elt F) ((c : Thread nD τ).loc b) := m ((c : Thread nD τ).loc b)

/-- The block of window `w`'s array that grid point `t` addresses, read off the launch contents. For the two
    input windows these are the row blocks `P` and `Q` of `X`. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The tile the body stores -/

/-- The whole 1024 × 64 input buffer, as the rectangle the body loads. -/
abbrev rowsRect : Rect S1024x64 := Rect.unit (s := S1024x64) ![0, 0] S1024x64.size inb_S1024x64_S1024x64_0_0
/-- The whole 1024 × 1024 output buffer, as the rectangle the body stores. -/
abbrev tileRect : Rect S1024x1024 := Rect.unit (s := S1024x1024) ![0, 0] S1024x1024.size inb_S1024x1024_S1024x1024_0_0

/-- What the output buffer holds after the body, from the two row blocks: the one store's value, laid over the
    whole buffer. -/
def tile (P Q : Vec F S1024x64 .f32) : Vec F S1024x1024 .f32 :=
  View.canon [⟨tileRect, k0_pay1 (View.ld P rowsRect) (View.ld Q rowsRect)⟩]

/-- The one store covers the buffer. -/
theorem tile_cover (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

/-! ## The body's triple -/

set_option maxHeartbeats 1000000 in
/-- On whole buffers `a`, `b` holding `P`, `Q` and a whole buffer `o` holding anything, the body runs to its end
    with `a`, `b` as they were and `o` at `tile P Q`. -/
theorem body_triple (c : Dev nD) (E : Set ℕ) (i : grid0.Coords)
    (a : Memref sig .tc .vmem S1024x64 .f32) (ha : a.IsWhole) (b : Memref sig .tc .vmem S1024x64 .f32) (hb : b.IsWhole)
    (o : Memref sig .tc .vmem S1024x1024 .f32) (ho : o.IsWhole)
    (P Q : Vec F S1024x64 .f32) (K : PUnit → sProp 𝕄) :
    iprop(owns (c : Thread nD τ) a fullShare P ∗ owns (c : Thread nD τ) b fullShare Q ∗ (∃ d, owns (c : Thread nD τ) o fullShare d)
        ∗ (iprop(owns (c : Thread nD τ) a fullShare P ∗ owns (c : Thread nD τ) b fullShare Q ∗ owns (c : Thread nD τ) o fullShare (tile P Q)) -∗ K ⟨⟩))
      ⊢ wp frame (wpE (defs₀ (F := F)) Variants.none c none) E (cc0__dist_kernel i a ha b hb o ho) K := by
  simp only [cc0__dist_kernel_eq_skeleton]; unfold cc0__dist_kernel_skel
  unfold owns
  iintro ⟨⟨%fa, %hfa, Ha⟩, ⟨%fb, %hfb, Hb⟩, ⟨%d, %fo, -, Ho⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (tile_cover _)

/-! ## The proof data of the launch -/

/-- Per core: the arrays as launched; after the body at point `t` the two input buffers still at their blocks and
    the output buffer at the tile of those blocks; no invariant beyond that and nothing owed. The array `X` is
    read through two windows, each holding half of it; the result is held whole. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_P (c : Dev nD) (t : Fin cfg0.N) : (dats m 0 c).after 0 t = blockAt m c 0 t := by dsimp only [dats]
theorem after_Q (c : Dev nD) (t : Fin cfg0.N) : (dats m 0 c).after 1 t = blockAt m c 1 t := by dsimp only [dats]
theorem after_tile (c : Dev nD) (t : Fin cfg0.N) :
    (dats m 0 c).after 2 t = tile (blockAt m c 0 t) (blockAt m c 1 t) := by dsimp only [dats]

/-- The first window's buffer holds row block `P` when the body runs at `t`. The block is fetched only when the
    outer coordinate moves (every eighth point); in between the buffer still holds it, the body having left it
    in place. -/
theorem before_P (c : Dev nD) (t : Fin cfg0.N) (d) : (dats m 0 c).before 0 t d = blockAt m c 0 t :=
  ((dats m 0 c).before_in_eq_fetched 0 rfl (fun _ => rfl) (fun _ _ _ => rfl)
      (fun t => by rw [after_P]; unfold Dat.blockOf blockAt; rw [A_eq]; try rfl) t d).trans
    (by unfold Dat.fetched Dat.blockOf blockAt; rw [A_eq]; try rfl)

/-- The second window's buffer holds row block `Q` (fetched at every point). -/
theorem before_Q (c : Dev nD) (t : Fin cfg0.N) (d) : (dats m 0 c).before 1 t d = blockAt m c 1 t :=
  ((dats m 0 c).before_in_eq_fetched 1 rfl (fun _ => rfl) (fun _ _ _ => rfl)
      (fun t => by rw [after_Q]; unfold Dat.blockOf blockAt; rw [A_eq]; try rfl) t d).trans
    (by unfold Dat.fetched Dat.blockOf blockAt; rw [A_eq]; try rfl)

/-! ## The obligation at a grid point -/

/-- What the body is handed at point `t`: -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [before_P, before_Q]
  rw [show (dats m 0 c).Φ t.succ = (dats m 0 c).Φ t.castSucc from rfl,
    show (dats m 0 c).owesAt () t.succ = (dats m 0 c).owesAt () t.castSucc from rfl,
    after_P, after_Q, after_tile]
  iintro ⟨HΦ, Hw, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

/-- The pipeline's obligation on the body, at every point. -/
theorem body_obligation (c : Dev nD) : BodyObligation (dats (F := F) m 0 c) (defs₀ (F := F)) Variants.none () Set.univ := fun t => by
  rw [bigSep_W0, bigSep_W0]
  exact body_at m c t

end Cert.KernelIdeal.Dist

end
-- ==== Proof.KernelIdealRun.lean ====
import proofs.«109067_j36541581754617_1_alg».proof.Proof.KernelIdealBody

/-!
# The launch of the pairwise-distance kernel

The kernel reads the array `X` through two windows. The launch holds `X` whole; it is dealt to the two windows
half and half (a read needs only a share), and the result array is held whole by the output window. From the
one-point step this gives the whole run: every execution ends, `X` is unchanged, and the result array holds what
the 64 write-backs left, block by block.
-/

set_option maxRecDepth 16384

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The array behind two windows, dealt in halves -/

/-- The windows stand on two arrays: `X` (twice) and the result. -/
theorem arrs_eq : (Finset.univ.image (Pipeline.arrRef spec0) : Finset (Ref sig .tc)) = {main_arg0, main_v0} := by decide

/-- `X` whole splits into the two halves the input windows hold; the result goes whole to the output window. -/
theorem share_split (c : Dev nD) :
    (Pipeline.arrBufs spec0 c (V m c) : sProp 𝕄) ⊢ (dats m 0 c).arrays ((dats m 0 c).arrAt · 0) := by
  unfold Pipeline.arrBufs Dat.arrays
  rw [arrs_eq, bigSep_W0, bigSep_insert (by decide), bigSep_singleton]
  refine (show iprop(((c.tc : Thread nD τ).loc main_arg0 ↦{fullShare} V m c main_arg0)
    ∗ ((c.tc : Thread nD τ).loc main_v0 ↦{fullShare} V m c main_v0)) ⊢ _ from ?_)
  iintro ⟨HX, HO⟩
  ihave HX := (pointsTo_share (PosShare.mem_left_op_right fullShare)).1 $$ HX
  icases HX with ⟨HX₁, HX₂⟩
  isplitl [HX₁]
  · rw [(arr_whole0 0).set_eq_univ]; iexact HX₁
  isplitl [HX₂]
  · rw [(arr_whole0 1).set_eq_univ]; iexact HX₂
  · rw [(arr_whole0 2).set_eq_univ]; iexact HO

/-! ## The run -/

/-- The pipeline's bookkeeping lives in one copy of the rounds algebra. -/
abbrev EP : Emb (UR sig nD τ) (MT nD τ sig Unit (Elt F) ℕ (UR sig nD τ) ℕ) := emb₁

/-- Its launch element: every staging cell at round 0 and a token for each transfer the pipeline will issue. -/
def u₀ : UR sig nD τ := initOf (Pipeline.cells cfgs cellOf_inj) (Pipeline.launchToks cfgs cellOf_inj)

/-- After the run each window's array holds what the write-backs of all 64 points left. -/
def Final : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with all counters zero, every weakly fair execution ends without a fault in a state
    satisfying `Final`. -/
theorem run_main : θ_run defs (onTc (τ := τ) (main (F := F))) (s₀ m ρ) (Final m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := share_split m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- `X` is only read: it ends as launched. -/
theorem final_X (c : Dev nD) : (dats m 0 c).arrAt (0 : Fin 3) cfg0.N = m ((c : Thread nD τ).loc main_arg0) :=
  ((dats m 0 c).arrAt_in (0 : Fin 3) rfl _).trans (A_eq m c 0)

/-- The run with the result array named and `X` unchanged. -/
theorem run_named : θ_run defs (onTc (τ := τ) (main (F := F))) ⟨m, fun _ => 0, ρ⟩ (fun r => ∀ c : Dev nD,
      r.2.mem ((c.tc : Thread nD τ).loc main_v0) = (dats m 0 c).arrAt (2 : Fin 3) cfg0.N
      ∧ r.2.mem ((c.tc : Thread nD τ).loc main_arg0) = m ((c.tc : Thread nD τ).loc main_arg0)) :=
  (θ_run defs _ _).mono (fun _ h c => ⟨h c (2 : Fin 3), (h c (0 : Fin 3)).trans (final_X m c)⟩) (run_main m ρ)

/-- The frame: every execution ends, nothing faults, `X` is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_named m ρ)

end Cert.KernelIdeal.Dist

end
-- ==== Proof.DistSpec.lean ====
import Idealize.ShloMosaic.PureOps.Ideal
import Idealize.ShloMosaic.PureOps.Ideal.Laws
import Idealize.ShloMosaic.Lib.ValueIdx

/-!
# Pairwise distances from squared lengths and inner products

For 8192 points `x_p` in 64 coordinates, over the extended reals, the entry `(p, q)` of the result is computed from
three sums: the squared lengths `|x_p|²`, `|x_q|²` and the inner product `⟨x_p, x_q⟩`. With
`s = max (|x_p|² + |x_q|² − 2·⟨x_p, x_q⟩) 0` the entry is `√s` where `s > 0` and `0` elsewhere (the root is taken of
`1` in place of a non-positive `s`, and that value is then discarded). Both programs compute exactly this
expression, in this order of operations, so no law of arithmetic is needed to join them: only the reading of their
sums at an index.
-/

noncomputable section

namespace Cert.DistSpec

open Idealize.ShloMosaic Idealize.ShloMosaic.ValueIdx

/-- The points: 8192 rows of 64 coordinates. -/
abbrev Pts : Shape := ⟨2, ![8192, 64]⟩
/-- The result: one entry per ordered pair of points. -/
abbrev Pairs : Shape := ⟨2, ![8192, 8192]⟩

/-- The squared length of point `r`. -/
def sqLen (x : Pts.Idx → EReal) (r : Fin 8192) : EReal := ∑ k : Fin 64, x (ix2 r k) * x (ix2 r k)

/-- The inner product of points `p` and `q`. -/
def inner (x : Pts.Idx → EReal) (p q : Fin 8192) : EReal := ∑ k : Fin 64, x (ix2 p k) * x (ix2 q k)

/-- The clamped squared distance from the two squared lengths and the inner product. -/
def sqDist (np nq g : EReal) : EReal :=
  max (np + nq - Ideal.ofBits .f32 0x40000000#32 * g) (Ideal.ofBits .f32 0x00000000#32)

/-- The distance from a clamped squared distance `s`: its root where it is positive, zero elsewhere. -/
def rootOf (s : EReal) : EReal :=
  Scalar.select (Ideal.cmp .ogt s (Ideal.ofBits .f32 0x00000000#32))
    (Ideal.sqrt (Scalar.select (Ideal.cmp .ogt s (Ideal.ofBits .f32 0x00000000#32)) s (Ideal.ofBits .f32 0x3F800000#32)))
    (Ideal.ofBits .f32 0x00000000#32)

/-- The distance of points `p` and `q`. -/
def distAt (x : Pts.Idx → EReal) (p q : Fin 8192) : EReal :=
  rootOf (sqDist (sqLen x p) (sqLen x q) (inner x p q))

/-- The whole result array. -/
def dist (x : Pts.Idx → EReal) : Pairs.Idx → EReal := fun i => distAt x (i 0) (i 1)

theorem dist_ix2 (x : Pts.Idx → EReal) (p q : Fin 8192) : dist x (ix2 p q) = distAt x p q := rfl

end Cert.DistSpec

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KernelIdealValue.lean ====
import proofs.«109067_j36541581754617_1_alg».proof.Proof.KernelIdealRun
import proofs.«109067_j36541581754617_1_alg».proof.Proof.DistSpec
import proofs.«109067_j36541581754617_1_alg».proof.Proof.LibLayout
import Idealize.ShloMosaic.Lib.Pipeline.Value
import Idealize.ShloMosaic.Lib.ValueIdx
import Idealize.ShloMosaic.Lib.ValueLayout
import Idealize.ShloMosaic.PureOps.Ideal.Laws

/-!
# The kernel's result is the specification's array

One grid point stores, into its 1024 × 1024 tile, a function of two row blocks of `X`: entry `(a, b)` depends on
row `a` of the first block and row `b` of the second only — through their squared lengths (a sum along the 64
coordinates, spread down the rows resp. across the columns) and their inner product (the matrix product of the
first block with the second transposed; the change of number format before it is the identity on extended reals).
The first block is the tile's row block of `X` and the second its column block, so the tile is a block of the one
array `dist X`; the 64 tiles fill that array.
-/

set_option maxRecDepth 16384

noncomputable section

namespace Cert.KernelIdeal.DistValue

open Cert.KernelIdeal Cert.KernelIdeal.Gen Cert.KernelIdeal.Dist Cert.DistSpec Cert.LibLayout
open Idealize.ShloMosaic Idealize.ShloMosaic.TcCoe Idealize.ShloMosaic.ValueIdx
open Idealize.SL Idealize.SL.Sem
open Idealize.ShloMosaic.Pipeline (Dat Cfg Window)

/-! ## The stored tile at an index -/

/-- Sums along the 64 coordinates, laid down the rows of the tile: at `(a, b)` the sum of row `a`. -/
theorem rowsum_down (w : FVec Ideal S1024x64 .f32) (a b : Fin 1024) :
    broadcastTo S1024x1024 (shapeCast S1024x1 (multiReduction (F := Ideal) .add [1] S1024 w 0x00000000#32 reduces_S1024x64_S1024 (.inl rfl) rfl)
        shapeCasts_S1024_S1024x1) broadcasts_S1024x1_S1024x1024 (ix2 a b)
      = ∑ k : Fin 64, w (ix2 a k) := by
  rw [broadcastTo_a1_ab_apply, shapeCast_a_a1_apply]
  refine (Ideal.multiReduction_add_single w 0x00000000#32 reduces_S1024x64_S1024 (.inl rfl) rfl (ix1 a)).trans ?_
  refine Finset.sum_congr rfl fun k _ => ?_
  exact congrArg w (funext fun ax => Fin.ext (by match ax with | ⟨0, _⟩ => rfl | ⟨1, _⟩ => rfl))

/-- The same sums turned into a row and laid across the columns: at `(a, b)` the sum of row `b`. -/
theorem rowsum_across (w : FVec Ideal S1024x64 .f32) (a b : Fin 1024) :
    broadcastTo S1024x1024 (transpose S1x1024 [1, 0] (shapeCast S1024x1 (multiReduction (F := Ideal) .add [1] S1024 w 0x00000000#32 reduces_S1024x64_S1024 (.inl rfl) rfl)
        shapeCasts_S1024_S1024x1) transposes_S1024x1_p1_0_S1x1024) broadcasts_S1x1024_S1024x1024 (ix2 a b)
      = ∑ k : Fin 64, w (ix2 b k) := by
  rw [broadcastTo_1b_ab_apply, transpose_ix2_apply, shapeCast_a_a1_apply]
  refine (Ideal.multiReduction_add_single w 0x00000000#32 reduces_S1024x64_S1024 (.inl rfl) rfl (ix1 b)).trans ?_
  refine Finset.sum_congr rfl fun k _ => ?_
  exact congrArg w (funext fun ax => Fin.ext (by match ax with | ⟨0, _⟩ => rfl | ⟨1, _⟩ => rfl))

/-- The dimension numbers of the body's matrix product: rows of the first operand against columns of the second. -/
abbrev gramDims := dot_S1024x64_S64x1024_S1024x1024_1_0_0_1_n_n

theorem gram_lhs_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem gram_lhs_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem gram_rhs_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem gram_rhs_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The matrix product of block `P` with block `Q` transposed, into a zero accumulator: at `(a, b)` the inner
    product of row `a` of `P` with row `b` of `Q` (the change of format before it is the identity here). -/
theorem gram_at (P Q : FVec Ideal S1024x64 .f32) (a b : Fin 1024) :
    matmul (F := Ideal) gramDims none (truncf .bf16 P bitsLt_bf16_f32)
        (transpose S64x1024 [1, 0] (truncf .bf16 Q bitsLt_bf16_f32) transposes_S1024x64_p1_0_S64x1024)
        (constant S1024x1024 .f32 0x00000000#32) (ix2 a b)
      = ∑ k : Fin 64, P (ix2 a k) * Q (ix2 b k) := by
  simp only [matmul]
  rw [Ideal.matmul_constant_zero_apply, ← Equiv.sum_comp (contrEquiv1 gramDims 64 rfl rfl).symm]
  refine Finset.sum_congr rfl fun k _ => ?_
  have hk := contrEquiv1_symm_val gramDims 64 rfl rfl k
  have el : gramDims.lhsIdx (ix2 a b) ((contrEquiv1 gramDims 64 rfl rfl).symm k) = ix2 a k := funext fun ax => Fin.ext (by
    match ax with
    | ⟨0, _⟩ => exact gram_lhs_0 _ _
    | ⟨1, _⟩ => exact (gram_lhs_1 _ _).trans hk)
  have er : gramDims.rhsIdx (ix2 a b) ((contrEquiv1 gramDims 64 rfl rfl).symm k) = ix2 k b := funext fun ax => Fin.ext (by
    match ax with
    | ⟨0, _⟩ => exact (gram_rhs_0 _ _).trans hk
    | ⟨1, _⟩ => exact gram_rhs_1 _ _)
  rw [el, er, transpose_ix2_apply]
  rfl

/-- The elementwise tail of the body, from the three arrays it combines, is the specification's expression. -/
theorem tail_at (n1 n2 g : FVec Ideal S1024x1024 .f32) (j : S1024x1024.Idx) :
    select (cmpf .ogt (maximumf (subf (addf n1 n2) (mulf (broadcast S1024x1024 (Scalar.ofBits (F := Ideal) .f32 0x40000000#32)) g))
          (broadcast S1024x1024 (Scalar.ofBits (F := Ideal) .f32 0x00000000#32))) (broadcast S1024x1024 (Scalar.ofBits (F := Ideal) .f32 0x00000000#32)))
        (sqrt (select (cmpf .ogt (maximumf (subf (addf n1 n2) (mulf (broadcast S1024x1024 (Scalar.ofBits (F := Ideal) .f32 0x40000000#32)) g))
            (broadcast S1024x1024 (Scalar.ofBits (F := Ideal) .f32 0x00000000#32))) (broadcast S1024x1024 (Scalar.ofBits (F := Ideal) .f32 0x00000000#32)))
          (maximumf (subf (addf n1 n2) (mulf (broadcast S1024x1024 (Scalar.ofBits (F := Ideal) .f32 0x40000000#32)) g))
            (broadcast S1024x1024 (Scalar.ofBits (F := Ideal) .f32 0x00000000#32)))
          (broadcast S1024x1024 (Scalar.ofBits (F := Ideal) .f32 0x3F800000#32))))
        (broadcast S1024x1024 (Scalar.ofBits (F := Ideal) .f32 0x00000000#32)) j
      = rootOf (sqDist (n1 j) (n2 j) (g j)) := rfl

/-- The stored value at `(a, b)`: the distance expression of row `a` of `P` and row `b` of `Q`. -/
theorem pay_at (P Q : FVec Ideal S1024x64 .f32) (a b : Fin 1024) :
    k0_pay1 (F := Ideal) P Q (ix2 a b)
      = rootOf (sqDist (∑ k : Fin 64, P (ix2 a k) * P (ix2 a k)) (∑ k : Fin 64, Q (ix2 b k) * Q (ix2 b k))
          (∑ k : Fin 64, P (ix2 a k) * Q (ix2 b k))) := by
  unfold k0_pay1
  refine (tail_at _ _ _ (ix2 a b)).trans ?_
  rw [rowsum_down, rowsum_across, gram_at]
  rfl

/-! ## What a grid point writes back -/

theorem zero_origin : (![0, 0] : Fin 2 → Nat) = fun _ => 0 := funext fun a => by fin_cases a <;> rfl

/-- The printed index maps over the grid: the first input window follows the output's row block, the second its
    column block, neither moves along the 64 coordinates, and the output's block indices stay below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every pair of a row block and a column block is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

variable (m : (ℓ : Loc nD τ sig) → Buf (Elt Ideal) ℓ) (ρ : Dev nD → PrngReg)

/-- Point `t` writes back the block of the distance array it addresses: entry `(a, b)` of the tile is computed
    from row `a` of row block `P` and row `b` of row block `Q`, which are the points the entry's own row and column
    name in the whole array. -/
theorem flushed_eq (c : Dev nD) (t : Fin cfg0.N) :
    (dats m 0 c).flushed 2 t = ((cfg0.win 2).blk t).view.read (Elt Ideal) (dist (m ((c : Thread nD τ).loc main_arg0))) := by
  show (cfg0.win 2).cut (grid0.coords t) ((dats m 0 c).after 2 t) = _
  rw [after_tile]
  unfold tile
  rw [View.canon_unit_zero zero_origin]
  simp only [View.ld_unit_zero (S := S1024x64) zero_origin]
  obtain ⟨e0, e1, e2, e3, e4, e5⟩ := idx_facts t
  funext j
  obtain ⟨a, b, rfl⟩ : ∃ (a b : Fin 1024), j = ix2 a b := ⟨j 0, j 1, eq_ix2 j⟩
  refine (pay_at (blockAt m c 0 t) (blockAt m c 1 t) a b).trans ?_
  have hP : ∀ k : Fin 64, blockAt m c 0 t (ix2 a k)
      = m ((c : Thread nD τ).loc main_arg0) (ix2 ((((cfg0.win 2).blk t).view.emb (ix2 a b)) 0) k) := fun k => by
    show V m c main_arg0 (((cfg0.win 0).blk t).view.emb (ix2 a k)) = _
    refine congrArg _ (funext fun ax => Fin.ext ?_)
    match ax with
    | ⟨0, _⟩ =>
      show win0_0.index t (0 : Fin 2) * 1024 + 1 * a.val = win0_2.index t (0 : Fin 2) * 1024 + 1 * a.val
      omega
    | ⟨1, _⟩ =>
      show win0_0.index t (1 : Fin 2) * 64 + 1 * k.val = k.val
      omega
  have hQ : ∀ k : Fin 64, blockAt m c 1 t (ix2 b k)
      = m ((c : Thread nD τ).loc main_arg0) (ix2 ((((cfg0.win 2).blk t).view.emb (ix2 a b)) 1) k) := fun k => by
    show V m c main_arg0 (((cfg0.win 1).blk t).view.emb (ix2 b k)) = _
    refine congrArg _ (funext fun ax => Fin.ext ?_)
    match ax with
    | ⟨0, _⟩ =>
      show win0_1.index t (0 : Fin 2) * 1024 + 1 * b.val = win0_2.index t (1 : Fin 2) * 1024 + 1 * b.val
      omega
    | ⟨1, _⟩ =>
      show win0_1.index t (1 : Fin 2) * 64 + 1 * k.val = k.val
      omega
  simp only [hP, hQ]
  rfl

/-! ## The blocks fill the array -/

/-- An entry is in point `t`'s block iff its row and its column are in the block's ranges. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every entry `(r, s)` lies in the block of the point with row block `r / 1024` and column block `s / 1024`, and
    every point writes its block back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-! ## The run, read -/

/-- After the run the result array is the distance array of `X`. -/
theorem final_dist (c : Dev nD) :
    (dats m 0 c).arrAt (2 : Fin 3) cfg0.N = dist (m ((c : Thread nD τ).loc main_arg0)) :=
  (dats m 0 c).arrAt_eq_of_cover 2 _ (fun t _ => flushed_eq m c t) covered

/-- Every execution ends with the result at the distance array of `X` and `X` unchanged. -/
theorem run : θ_run defs (onTc (τ := τ) (main (F := Ideal))) ⟨m, fun _ => 0, ρ⟩ (fun r => ∀ c : Dev nD,
      r.2.mem ((c.tc : Thread nD τ).loc main_v0) = dist (m ((c.tc : Thread nD τ).loc main_arg0))
      ∧ r.2.mem ((c.tc : Thread nD τ).loc main_arg0) = m ((c.tc : Thread nD τ).loc main_arg0)) :=
  (θ_run defs _ _).mono (fun r h c => ⟨(h c).1.trans (final_dist m c), (h c).2⟩) (run_named m ρ)

end Cert.KernelIdeal.DistValue

end
-- ==== Proof.RefValue.lean ====
import proofs.«109067_j36541581754617_1_alg».proof.Proof.Gen.ReferenceIdeal.Run
import proofs.«109067_j36541581754617_1_alg».proof.Proof.Gen.ReferenceIdeal.Read
import proofs.«109067_j36541581754617_1_alg».proof.Proof.DistSpec
import Idealize.ShloMosaic.Lib.ValueIdx
import Idealize.ShloMosaic.PureOps.Ideal.Laws

/-!
# The reference computes the specification

The reference forms the squared lengths by a row sum started at `0`, the inner products by one matrix product of
`X` with itself, spreads the lengths down the rows and across the columns, and applies the same elementwise
expression. Read at an entry `(p, q)`, each stage is the specification's: the row sum is `0 + Σ`, and adding `0` on
the left changes nothing on the extended reals.
-/

noncomputable section

namespace Cert.ReferenceIdeal.DistRef

open Cert.ReferenceIdeal Cert.ReferenceIdeal.Gen Cert.ReferenceIdeal.Read Cert.DistSpec
open Idealize.ShloMosaic Idealize.ShloMosaic.ValueIdx

/-- The row sums: the squared length of point `r`. -/
theorem sq_at (x0 : (⟨S8192x64, .f32⟩ : BufTy).Contents (Elt Ideal)) (r : Fin 8192) :
    val_main_v1 (F := Ideal) x0 (ix1 r) = sqLen x0 r := by
  rw [val_main_v1_apply]
  show Ideal.ofBits .f32 0x00000000#32 + _ = _
  rw [Ideal.ofBits_zero_f32, zero_add]
  refine Finset.sum_congr rfl fun k _ => ?_
  have e : idx_main_v1 (ix1 r) k = ix2 r k :=
    funext fun a => Fin.ext (by match a with | ⟨0, _⟩ => rfl | ⟨1, _⟩ => rfl)
  rw [e]; rfl

/-- The matrix product of `X` with itself along the coordinates: the inner product of points `p` and `q`. -/
theorem inner_at (x0 : (⟨S8192x64, .f32⟩ : BufTy).Contents (Elt Ideal)) (p q : Fin 8192) :
    val_main_v2 (F := Ideal) x0 (ix2 p q) = inner x0 p q := by
  rw [val_main_v2_apply]
  refine Finset.sum_congr rfl fun k _ => ?_
  have el : lidx_main_v2 (ix2 p q) k = ix2 p k :=
    funext fun a => Fin.ext (by match a with | ⟨0, _⟩ => rfl | ⟨1, _⟩ => rfl)
  have er : ridx_main_v2 (ix2 p q) k = ix2 q k :=
    funext fun a => Fin.ext (by match a with | ⟨0, _⟩ => rfl | ⟨1, _⟩ => rfl)
  rw [el, er]

/-- The lengths spread down the rows: at `(p, q)` the squared length of `p`. -/
theorem down_at (x0 : (⟨S8192x64, .f32⟩ : BufTy).Contents (Elt Ideal)) (p q : Fin 8192) :
    val_main_v5 (F := Ideal) x0 (ix2 p q) = sqLen x0 p := by
  rw [val_main_v5_apply, val_main_v3_apply]
  have e : idx_main_v3 (idx_main_v5 (ix2 p q)) = ix1 p :=
    funext fun a => Fin.ext (by match a with | ⟨0, _⟩ => rfl)
  rw [e, sq_at]

/-- The lengths spread across the columns: at `(p, q)` the squared length of `q`. -/
theorem across_at (x0 : (⟨S8192x64, .f32⟩ : BufTy).Contents (Elt Ideal)) (p q : Fin 8192) :
    val_main_v6 (F := Ideal) x0 (ix2 p q) = sqLen x0 q := by
  rw [val_main_v6_apply, val_main_v4_apply]
  have e : idx_main_v4 (idx_main_v6 (ix2 p q)) = ix1 q :=
    funext fun a => Fin.ext (by match a with | ⟨0, _⟩ => rfl)
  rw [e, sq_at]

/-- The clamped squared distance at `(p, q)`. -/
theorem sq_dist_at (x0 : (⟨S8192x64, .f32⟩ : BufTy).Contents (Elt Ideal)) (p q : Fin 8192) :
    val_main_v12 (F := Ideal) x0 (ix2 p q) = sqDist (sqLen x0 p) (sqLen x0 q) (inner x0 p q) := by
  rw [val_main_v12_apply, val_main_v10_apply, val_main_v7_apply, val_main_v9_apply, down_at, across_at, inner_at,
    val_main_v8_apply, val_main_v11_apply]
  rfl

/-- The reference's result is the specification's array. -/
theorem result_eq (x0 : (⟨S8192x64, .f32⟩ : BufTy).Contents (Elt Ideal)) : val_main_v17 (F := Ideal) x0 = dist x0 := by
  funext i
  obtain ⟨p, q, rfl⟩ : ∃ (p q : Fin 8192), i = ix2 p q := ⟨i 0, i 1, eq_ix2 i⟩
  rw [dist_ix2, val_main_v17_apply, val_main_v16_apply, val_main_v15_apply, val_main_v14_apply, sq_dist_at,
    val_main_v13_apply, val_main_call0_v1_apply, val_main_call1_v1_apply]
  rfl

end Cert.ReferenceIdeal.DistRef

end
-- ==== Proof.lean ====
/-
  The pairwise-distance kernel against its reference, over the extended reals.

  Both programs take 8192 points `x_p` in 64 coordinates and return, for every ordered pair `(p, q)`,
  `√s` where `s = max (|x_p|² + |x_q|² − 2·⟨x_p, x_q⟩) 0` is positive and `0` elsewhere (Proof/DistSpec.lean). The
  kernel does it tile by tile on an 8 × 8 grid, reading the array through two windows (the tile's row block and
  its column block of points); the reference does it in one piece. Read at an entry the two are the same
  expression of the same three sums, so no precondition is used and the kernel's idealization rewrote nothing.

  * the kernel's frames: one grid point's step (Proof/KernelIdealBody.lean) and the launch, the array dealt to its
    two windows in halves (Proof/KernelIdealRun.lean), at any float instance; the word-level program's two modules
    are the same text in its namespace;
  * the kernel's result array is `dist X` (Proof/KernelIdealValue.lean);
  * the reference's result is `dist X` (Proof/RefValue.lean), its frame its run with the result dropped.
-/
import proofs.«109067_j36541581754617_1_alg».proof.Defs
import proofs.«109067_j36541581754617_1_alg».proof.Proof.Gen.Kernel
import proofs.«109067_j36541581754617_1_alg».proof.Proof.Gen.KernelIdeal
import proofs.«109067_j36541581754617_1_alg».proof.Proof.Gen.ReferenceIdeal
import proofs.«109067_j36541581754617_1_alg».proof.Proof.Gen.Pre_finite_inputs
import proofs.«109067_j36541581754617_1_alg».proof.Proof.KernelRun
import proofs.«109067_j36541581754617_1_alg».proof.Proof.KernelIdealValue
import proofs.«109067_j36541581754617_1_alg».proof.Proof.RefValue

noncomputable section

namespace Cert.Proof

open Idealize.ShloMosaic Idealize.ShloMosaic.TcCoe Idealize.SL.Sem

/-- The word-level kernel runs to its end without a fault and leaves `X` as it was. -/
theorem frame_kernel : Cert.frame_Kernel := fun m ρ _ => Cert.Kernel.Dist.frame (F := Bits) m ρ

/-- So does its reading over the extended reals. -/
theorem frame_kernel_ideal : Cert.frame_KernelIdeal := fun m ρ _ => Cert.KernelIdeal.Dist.frame (F := Ideal) m ρ

/-- The reference is host operations only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `X` both programs end with the distance array of `X`. -/
theorem algebraic : Cert.algebraic_KernelIdeal_ReferenceIdeal := by
  intro m ρ m' ρ' _ hagree
  refine ⟨fun c => Cert.DistSpec.dist (m ((c.tc : Thread Cert.KernelIdeal.nD Cert.KernelIdeal.τ).loc Cert.KernelIdeal.main_arg0)),
    Cert.KernelIdeal.DistValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.DistRef.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
